-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024x1 : Shape := ⟨3, ![16384, 1024, 1]⟩
abbrev S3x1024x1 : Shape := ⟨3, ![3, 1024, 1]⟩
abbrev S_ : Shape := ⟨0, ![]⟩

class Facts : Prop where
  bcast_S_S16384x1024x1 : S_.BroadcastsInDim S16384x1024x1 (![] : Fin 0 → Fin S16384x1024x1.rank)
  reducesTo_S16384x1024x1_S_d0_1_2 : S16384x1024x1.ReducesTo [0, 1, 2] S_
  h_S_ : 0 < S_.numel
  bcast_S_S3x1024x1 : S_.BroadcastsInDim S3x1024x1 (![] : Fin 0 → Fin S3x1024x1.rank)
  reducesTo_S3x1024x1_S_d0_1_2 : S3x1024x1.ReducesTo [0, 1, 2] S_

variable [Facts]

def fn {F : FTy → Type} [FloatOps F] (main_arg0 : FVec F S16384x1024x1 .f32) (main_arg1 : FVec F S3x1024x1 .f32) (main_arg2 : FVec F S3x1024x1 .f32) : IVec S_ 1 :=
  let main_v0 : FVec F S16384x1024x1 .f32 := Host.absf main_arg0
  let main_cst : FVec F S_ .f32 := constant S_ .f32 0x7F800000#32
  let main_v1 : FVec F S16384x1024x1 .f32 := broadcastInDim S16384x1024x1 ![] bcast_S_S16384x1024x1 main_cst
  let main_v2 : IVec S16384x1024x1 1 := cmpf .olt main_v0 main_v1
  let main_c : IVec S_ 1 := constantI S_ 1 1#1
  let main_v3 : IVec S_ 1 := (fun x v => Host.reduce IntOp.andi x v reducesTo_S16384x1024x1_S_d0_1_2 h_S_) main_v2 main_c
  let main_v4 : FVec F S3x1024x1 .f32 := Host.absf main_arg1
  let main_cst_0 : FVec F S_ .f32 := constant S_ .f32 0x7F800000#32
  let main_v5 : FVec F S3x1024x1 .f32 := broadcastInDim S3x1024x1 ![] bcast_S_S3x1024x1 main_cst_0
  let main_v6 : IVec S3x1024x1 1 := cmpf .olt main_v4 main_v5
  let main_c_1 : IVec S_ 1 := constantI S_ 1 1#1
  let main_v7 : IVec S_ 1 := (fun x v => Host.reduce IntOp.andi x v reducesTo_S3x1024x1_S_d0_1_2 h_S_) main_v6 main_c_1
  let main_v8 : IVec S_ 1 := andi main_v3 main_v7
  let main_v9 : FVec F S3x1024x1 .f32 := Host.absf main_arg2
  let main_cst_2 : FVec F S_ .f32 := constant S_ .f32 0x7F800000#32
  let main_v10 : FVec F S3x1024x1 .f32 := broadcastInDim S3x1024x1 ![] bcast_S_S3x1024x1 main_cst_2
  let main_v11 : IVec S3x1024x1 1 := cmpf .olt main_v9 main_v10
  let main_c_3 : IVec S_ 1 := constantI S_ 1 1#1
  let main_v12 : IVec S_ 1 := (fun x v => Host.reduce IntOp.andi x v reducesTo_S3x1024x1_S_d0_1_2 h_S_) main_v11 main_c_3
  let main_v13 : IVec S_ 1 := andi main_v8 main_v12
  main_v13
-- ==== Kernel.lean ====
abbrev S16384x1024x1 : Shape := ⟨3, ![16384, 1024, 1]⟩
abbrev S3x1024x1 : Shape := ⟨3, ![3, 1024, 1]⟩
abbrev S16384x1024 : Shape := ⟨2, ![16384, 1024]⟩
abbrev S3x1024 : Shape := ⟨2, ![3, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024x1, .f32⟩
  | .hbm, ⟨1, _⟩ => ⟨S3x1024x1, .f32⟩
  | .hbm, ⟨2, _⟩ => ⟨S3x1024x1, .f32⟩
  | .hbm, ⟨3, _⟩ => ⟨S16384x1024, .f32⟩
  | .hbm, ⟨4, _⟩ => ⟨S3x1024, .f32⟩
  | .hbm, ⟨5, _⟩ => ⟨S3x1024, .f32⟩
  | .hbm, ⟨6, _⟩ => ⟨S16384x1024, .f32⟩
  | .hbm, ⟨7, _⟩ => ⟨S16384x1024x1, .f32⟩
  | .local _ .vmem, ⟨0, _⟩ => ⟨S1024x1024, .f32⟩
  | .local _ .vmem, ⟨1, _⟩ => ⟨S1024x1024, .f32⟩
  | .local _ .vmem, ⟨2, _⟩ => ⟨S3x1024, .f32⟩
  | .local _ .vmem, ⟨3, _⟩ => ⟨S3x1024, .f32⟩
  | .local _ .vmem, ⟨4, _⟩ => ⟨S1024x1024, .f32⟩
  | .local _ .vmem, ⟨5, _⟩ => ⟨S1024x1024, .f32⟩
  | _, _ => ⟨S16384x1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16384x1024x1_S16384x1024 : S16384x1024x1.ShapeCasts S16384x1024
  shapeCasts_S3x1024x1_S3x1024 : S3x1024x1.ShapeCasts S3x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S3x1024_S1x1024_0_0 : ∀ a, (![0, 0] : Fin 2 → Nat) a + S1x1024.size a ≤ S3x1024.size a
  h_S1x1024 : 0 < S1x1024.numel
  shapeCasts_S1x1024_S1024 : S1x1024.ShapeCasts S1024
  shapeCasts_S1024_S1x1024 : S1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S3x1024_S1x1024_1_0 : ∀ a, (![1, 0] : Fin 2 → Nat) a + S1x1024.size a ≤ S3x1024.size a
  inb_S3x1024_S1x1024_2_0 : ∀ a, (![2, 0] : Fin 2 → Nat) a + S1x1024.size a ≤ S3x1024.size a
  shapeCasts_S16384x1024_S16384x1024x1 : S16384x1024.ShapeCasts S16384x1024x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x1024.size a
  hwx0_1 : ∀ i : grid0.Coords, EltTy.bits .f32 = 32 ∨ (Rect.block (s := S3x1024) S3x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1024.size a ≤ S3x1024.size a
  hwx0_2 : ∀ i : grid0.Coords, EltTy.bits .f32 = 32 ∨ (Rect.block (s := S3x1024) S3x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024x1 : Shape := ⟨3, ![16384, 1024, 1]⟩
abbrev S3x1024x1 : Shape := ⟨3, ![3, 1024, 1]⟩
abbrev S1x1024x1 : Shape := ⟨3, ![1, 1024, 1]⟩
abbrev S1024x1 : Shape := ⟨2, ![1024, 1]⟩
abbrev S_ : Shape := ⟨0, ![]⟩
abbrev S16384x1 : Shape := ⟨2, ![16384, 1]⟩
abbrev S16384x1x1 : Shape := ⟨3, ![16384, 1, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024x1, .f32⟩
  | .hbm, ⟨1, _⟩ => ⟨S3x1024x1, .f32⟩
  | .hbm, ⟨2, _⟩ => ⟨S3x1024x1, .f32⟩
  | .hbm, ⟨3, _⟩ => ⟨S1x1024x1, .f32⟩
  | .hbm, ⟨4, _⟩ => ⟨S1024x1, .f32⟩
  | .hbm, ⟨5, _⟩ => ⟨S1x1024x1, .f32⟩
  | .hbm, ⟨6, _⟩ => ⟨S16384x1024x1, .f32⟩
  | .hbm, ⟨7, _⟩ => ⟨S16384x1024x1, .f32⟩
  | .hbm, ⟨8, _⟩ => ⟨S_, .f32⟩
  | .hbm, ⟨9, _⟩ => ⟨S16384x1, .f32⟩
  | .hbm, ⟨10, _⟩ => ⟨S16384x1x1, .f32⟩
  | .hbm, ⟨11, _⟩ => ⟨S16384x1024x1, .f32⟩
  | .hbm, ⟨12, _⟩ => ⟨S16384x1024x1, .f32⟩
  | .hbm, ⟨13, _⟩ => ⟨S1x1024x1, .f32⟩
  | .hbm, ⟨14, _⟩ => ⟨S1024x1, .f32⟩
  | .hbm, ⟨15, _⟩ => ⟨S1x1024x1, .f32⟩
  | .hbm, ⟨16, _⟩ => ⟨S16384x1024x1, .f32⟩
  | .hbm, ⟨17, _⟩ => ⟨S16384x1024x1, .f32⟩
  | .hbm, ⟨18, _⟩ => ⟨S16384x1024x1, .f32⟩
  | .hbm, ⟨19, _⟩ => ⟨S1x1024x1, .f32⟩
  | .hbm, ⟨20, _⟩ => ⟨S1024x1, .f32⟩
  | .hbm, ⟨21, _⟩ => ⟨S1x1024x1, .f32⟩
  | .hbm, ⟨22, _⟩ => ⟨S16384x1024x1, .f32⟩
  | .hbm, ⟨23, _⟩ => ⟨S16384x1024x1, .f32⟩
  | .hbm, ⟨24, _⟩ => ⟨S_, .f32⟩
  | .hbm, ⟨25, _⟩ => ⟨S16384x1, .f32⟩
  | .hbm, ⟨26, _⟩ => ⟨S16384x1x1, .f32⟩
  | .hbm, ⟨27, _⟩ => ⟨S16384x1024x1, .f32⟩
  | .hbm, ⟨28, _⟩ => ⟨S16384x1024x1, .f32⟩
  | .hbm, ⟨29, _⟩ => ⟨S1x1024x1, .f32⟩
  | .hbm, ⟨30, _⟩ => ⟨S1024x1, .f32⟩
  | .hbm, ⟨31, _⟩ => ⟨S1x1024x1, .f32⟩
  | .hbm, ⟨32, _⟩ => ⟨S16384x1024x1, .f32⟩
  | .hbm, ⟨33, _⟩ => ⟨S16384x1024x1, .f32⟩
  | .hbm, ⟨34, _⟩ => ⟨S16384x1024x1, .f32⟩
  | .hbm, ⟨35, _⟩ => ⟨S1x1024x1, .f32⟩
  | .hbm, ⟨36, _⟩ => ⟨S1024x1, .f32⟩
  | .hbm, ⟨37, _⟩ => ⟨S1x1024x1, .f32⟩
  | .hbm, ⟨38, _⟩ => ⟨S16384x1024x1, .f32⟩
  | .hbm, ⟨39, _⟩ => ⟨S16384x1024x1, .f32⟩
  | .hbm, ⟨40, _⟩ => ⟨S_, .f32⟩
  | .hbm, ⟨41, _⟩ => ⟨S16384x1, .f32⟩
  | .hbm, ⟨42, _⟩ => ⟨S16384x1x1, .f32⟩
  | .hbm, ⟨43, _⟩ => ⟨S16384x1024x1, .f32⟩
  | .hbm, ⟨44, _⟩ => ⟨S16384x1024x1, .f32⟩
  | .hbm, ⟨45, _⟩ => ⟨S1x1024x1, .f32⟩
  | .hbm, ⟨46, _⟩ => ⟨S1024x1, .f32⟩
  | .hbm, ⟨47, _⟩ => ⟨S1x1024x1, .f32⟩
  | .hbm, ⟨48, _⟩ => ⟨S16384x1024x1, .f32⟩
  | .hbm, ⟨49, _⟩ => ⟨S16384x1024x1, .f32⟩
  | .hbm, ⟨50, _⟩ => ⟨S16384x1024x1, .f32⟩
  | _, _ => ⟨S16384x1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩

abbrev nD : Nat := 1
abbrev τ : Topo := Topo.v7x

variable {F : FTy → Type} [FloatOps F]

class Facts₀ : Prop where
  slices_S3x1024x1_S1x1024x1_0_0_0 : S3x1024x1.Slices ![0, 0, 0] S1x1024x1
  shapeCasts_S1x1024x1_S1024x1 : S1x1024x1.ShapeCasts S1024x1
  bcast_S1024x1_S1x1024x1_1_2 : S1024x1.BroadcastsInDim S1x1024x1 (![1, 2] : Fin 2 → Fin S1x1024x1.rank)
  bcast_S1x1024x1_S16384x1024x1_0_1_2 : S1x1024x1.BroadcastsInDim S16384x1024x1 (![0, 1, 2] : Fin 3 → Fin S16384x1024x1.rank)
  reducesTo_S16384x1024x1_S16384x1_d1 : S16384x1024x1.ReducesTo [1] S16384x1
  h_S_ : 0 < S_.numel
  bcast_S16384x1_S16384x1x1_0_2 : S16384x1.BroadcastsInDim S16384x1x1 (![0, 2] : Fin 2 → Fin S16384x1x1.rank)
  bcast_S16384x1x1_S16384x1024x1_0_1_2 : S16384x1x1.BroadcastsInDim S16384x1024x1 (![0, 1, 2] : Fin 3 → Fin S16384x1024x1.rank)
  slices_S3x1024x1_S1x1024x1_1_0_0 : S3x1024x1.Slices ![1, 0, 0] S1x1024x1
  slices_S3x1024x1_S1x1024x1_2_0_0 : S3x1024x1.Slices ![2, 0, 0] S1x1024x1

variable [Facts₀]

class Facts : Prop extends Facts₀ where

variable [Facts]
-- ==== Proof.Spec.lean ====
/-
  The cross network on one example, over the extended reals.

  An example is a row `x` of 1024 numbers. A layer has a weight row `w` and a bias row `b`; from a state `c` (a row)
  it forms the inner product `s = ∑ k, c k * w k` and the new state `d ↦ (x d * s + b d) + c d`. The network is three
  layers run from the state `x` itself, each with its own weight and bias row. Nothing here distributes a product
  over a sum or cancels anything, so the definitions are meaningful at the infinities too and no finiteness is asked.

  The arrays: the examples are the rows `x[n, ·, 0]` of a [16384, 1024, 1] array, the weight and bias rows of layer `l`
  are `W[l, ·, 0]` and `B[l, ·, 0]` of [3, 1024, 1] arrays, and the result `G` has at `(n, d, 0)` entry `d` of the third
  state of example `n`.
-/
import Idealize.ShloMosaic.PureOps.Ideal
import Idealize.ShloMosaic.Lib.ValueIdx

noncomputable section

open scoped BigOperators
open Idealize.ShloMosaic Idealize.ShloMosaic.ValueIdx

namespace Cert.CrossSpec

/-- One layer on one example: the state's inner product with the weights scales the example, the bias and the
    state are added, in this order. -/
def layer (x w b c : Fin 1024 → EReal) : Fin 1024 → EReal :=
  fun d => x d * (∑ k : Fin 1024, c k * w k) + b d + c d

/-- The shape of the examples' array and of the result. -/
abbrev Batch : Shape := ⟨3, ![16384, 1024, 1]⟩
/-- The shape of the weights' and of the biases' array. -/
abbrev Params : Shape := ⟨3, ![3, 1024, 1]⟩

/-- Example `n` as a row. -/
def xrow (x : Batch.Idx → EReal) (n : Fin 16384) : Fin 1024 → EReal := fun d => x (ix3 n d (0 : Fin 1))
/-- Layer `l`'s row of a parameter array. -/
def prow (P : Params.Idx → EReal) (l : Fin 3) : Fin 1024 → EReal := fun d => P (ix3 l d (0 : Fin 1))

/-- Example `n`'s state after the first layer, -/
def state1 (x : Batch.Idx → EReal) (W B : Params.Idx → EReal) (n : Fin 16384) : Fin 1024 → EReal :=
  layer (xrow x n) (prow W 0) (prow B 0) (xrow x n)
/-- after the second, -/
def state2 (x : Batch.Idx → EReal) (W B : Params.Idx → EReal) (n : Fin 16384) : Fin 1024 → EReal :=
  layer (xrow x n) (prow W 1) (prow B 1) (state1 x W B n)
/-- and after the third. -/
def state3 (x : Batch.Idx → EReal) (W B : Params.Idx → EReal) (n : Fin 16384) : Fin 1024 → EReal :=
  layer (xrow x n) (prow W 2) (prow B 2) (state2 x W B n)

/-- The result array: at `(n, d, 0)`, entry `d` of example `n`'s third state. -/
def G (x : Batch.Idx → EReal) (W B : Params.Idx → EReal) : Batch.Idx → EReal :=
  fun i => state3 x W B (i 0) (i 1)

end Cert.CrossSpec

end
-- ==== Proof.RefRead.lean ====
/-
  The reference computes the cross network of Spec.lean.

  Read one stage at a time (the generated read-at-an-index lemmas), the host program is, per layer: the layer's
  weight row sliced out of `W`, squeezed and spread over every example (at `(n, d, 0)` it is `W[l, d, 0]`); the
  product with the current state summed over `d` from zero (at `n`: the inner product of example `n`'s state with
  the weight row), spread back over `d`; then `x * s + bias + state`. So the stage after layer `l` is, at `(n, d, 0)`,
  entry `d` of example `n`'s state after `l` layers, and the program's result is `G`.
  The host's sum starts from the constant `0.0`, which is the extended real `0`, a left unit of `+`.
-/
import proofs.«101972_j54657753809485_1_alg».proof.Proof.Gen.ReferenceIdeal.Read
import proofs.«101972_j54657753809485_1_alg».proof.Proof.Spec

noncomputable section

open scoped BigOperators
open Idealize.ShloMosaic Idealize.ShloMosaic.TcCoe Idealize.ShloMosaic.ValueIdx

namespace Cert.ReferenceIdeal.RefValue

open Cert.ReferenceIdeal Cert.ReferenceIdeal.Read Cert.CrossSpec

variable (x : (⟨S16384x1024x1, .f32⟩ : BufTy).Contents (Elt Ideal))
variable (W B : (⟨S3x1024x1, .f32⟩ : BufTy).Contents (Elt Ideal))

/-- A row's entry found through the squeeze's flat index. -/
theorem flat_mod (n : ℕ) (h : n < 1024) : (n * 1 + 0) / 1 % 1024 = n := by omega

/-- An index of the examples' array is its first two coordinates and `0`. -/
theorem x_at (j : S16384x1024x1.Idx) : x j = xrow x (j 0) (j 1) :=
  congrArg x (funext fun a => by
    match a with
    | ⟨0, _⟩ => rfl
    | ⟨1, _⟩ => rfl
    | ⟨2, _⟩ => exact Fin.ext (by have h : (j 2).val < 1 := (j 2).isLt; show (j 2).val = 0; omega))

/-- The host's zero. -/
theorem zero_word : (FloatOps.ofBits (F := Ideal) .f32 0x00000000#32 : EReal) = 0 := Ideal.ofBits_zero_f32

/-! ## The weight and bias rows, spread over the examples -/

theorem w0 (j : S16384x1024x1.Idx) : val_main_v3 (F := Ideal) W j = prow W 0 (j 1) := by
  rw [val_main_v3_apply, val_main_v2_apply, val_main_v1_apply, val_main_v0_apply]
  refine congrArg W (funext fun a => Fin.ext ?_)
  match a with
  | ⟨0, _⟩ => rfl
  | ⟨1, _⟩ => show ((j 1).val * 1 + 0) / 1 % 1024 = (j 1).val; exact flat_mod _ (j 1).isLt
  | ⟨2, _⟩ => rfl

theorem b0 (j : S16384x1024x1.Idx) : val_main_v12 (F := Ideal) B j = prow B 0 (j 1) := by
  rw [val_main_v12_apply, val_main_v11_apply, val_main_v10_apply, val_main_v9_apply]
  refine congrArg B (funext fun a => Fin.ext ?_)
  match a with
  | ⟨0, _⟩ => rfl
  | ⟨1, _⟩ => show ((j 1).val * 1 + 0) / 1 % 1024 = (j 1).val; exact flat_mod _ (j 1).isLt
  | ⟨2, _⟩ => rfl

theorem w1 (j : S16384x1024x1.Idx) : val_main_v18 (F := Ideal) W j = prow W 1 (j 1) := by
  rw [val_main_v18_apply, val_main_v17_apply, val_main_v16_apply, val_main_v15_apply]
  refine congrArg W (funext fun a => Fin.ext ?_)
  match a with
  | ⟨0, _⟩ => rfl
  | ⟨1, _⟩ => show ((j 1).val * 1 + 0) / 1 % 1024 = (j 1).val; exact flat_mod _ (j 1).isLt
  | ⟨2, _⟩ => rfl

theorem b1 (j : S16384x1024x1.Idx) : val_main_v27 (F := Ideal) B j = prow B 1 (j 1) := by
  rw [val_main_v27_apply, val_main_v26_apply, val_main_v25_apply, val_main_v24_apply]
  refine congrArg B (funext fun a => Fin.ext ?_)
  match a with
  | ⟨0, _⟩ => rfl
  | ⟨1, _⟩ => show ((j 1).val * 1 + 0) / 1 % 1024 = (j 1).val; exact flat_mod _ (j 1).isLt
  | ⟨2, _⟩ => rfl

theorem w2 (j : S16384x1024x1.Idx) : val_main_v33 (F := Ideal) W j = prow W 2 (j 1) := by
  rw [val_main_v33_apply, val_main_v32_apply, val_main_v31_apply, val_main_v30_apply]
  refine congrArg W (funext fun a => Fin.ext ?_)
  match a with
  | ⟨0, _⟩ => rfl
  | ⟨1, _⟩ => show ((j 1).val * 1 + 0) / 1 % 1024 = (j 1).val; exact flat_mod _ (j 1).isLt
  | ⟨2, _⟩ => rfl

theorem b2 (j : S16384x1024x1.Idx) : val_main_v42 (F := Ideal) B j = prow B 2 (j 1) := by
  rw [val_main_v42_apply, val_main_v41_apply, val_main_v40_apply, val_main_v39_apply]
  refine congrArg B (funext fun a => Fin.ext ?_)
  match a with
  | ⟨0, _⟩ => rfl
  | ⟨1, _⟩ => show ((j 1).val * 1 + 0) / 1 % 1024 = (j 1).val; exact flat_mod _ (j 1).isLt
  | ⟨2, _⟩ => rfl

/-! ## The first layer -/

/-- The first layer's inner product, spread over `d`: the example against the first weight row. -/
theorem s0 (j : S16384x1024x1.Idx) :
    val_main_v7 (F := Ideal) x W j = ∑ k : Fin 1024, xrow x (j 0) k * prow W 0 k := by
  rw [val_main_v7_apply, val_main_v6_apply, val_main_v5_apply, val_main_cst_apply, zero_word, zero_add]
  refine Finset.sum_congr rfl fun k _ => ?_
  rw [val_main_v4_apply, w0]
  exact congrArg₂ (· * ·)
    (congrArg x (funext fun a => by match a with | ⟨0, _⟩ => rfl | ⟨1, _⟩ => rfl | ⟨2, _⟩ => rfl)) rfl

/-- The stage after the first layer is the first state. -/
theorem st1 (j : S16384x1024x1.Idx) : val_main_v14 (F := Ideal) x W B j = state1 x W B (j 0) (j 1) := by
  rw [val_main_v14_apply, val_main_v13_apply, val_main_v8_apply, s0, b0, x_at x j]
  rfl

/-! ## The second layer -/

theorem s1 (j : S16384x1024x1.Idx) :
    val_main_v22 (F := Ideal) x W B j = ∑ k : Fin 1024, state1 x W B (j 0) k * prow W 1 k := by
  rw [val_main_v22_apply, val_main_v21_apply, val_main_v20_apply, val_main_cst_0_apply, zero_word, zero_add]
  refine Finset.sum_congr rfl fun k _ => ?_
  rw [val_main_v19_apply, w1, st1]
  rfl

theorem st2 (j : S16384x1024x1.Idx) : val_main_v29 (F := Ideal) x W B j = state2 x W B (j 0) (j 1) := by
  rw [val_main_v29_apply, val_main_v28_apply, val_main_v23_apply, s1, b1, st1, x_at x j]
  rfl

/-! ## The third layer -/

theorem s2 (j : S16384x1024x1.Idx) :
    val_main_v37 (F := Ideal) x W B j = ∑ k : Fin 1024, state2 x W B (j 0) k * prow W 2 k := by
  rw [val_main_v37_apply, val_main_v36_apply, val_main_v35_apply, val_main_cst_1_apply, zero_word, zero_add]
  refine Finset.sum_congr rfl fun k _ => ?_
  rw [val_main_v34_apply, w2, st2]
  rfl

theorem st3 (j : S16384x1024x1.Idx) : val_main_v44 (F := Ideal) x W B j = state3 x W B (j 0) (j 1) := by
  rw [val_main_v44_apply, val_main_v43_apply, val_main_v38_apply, s2, b2, st2, x_at x j]
  rfl

/-- The reference's result is the cross network's. -/
theorem result_eq : val_main_v44 (F := Ideal) x W B = G x W B := funext fun j => st3 x W B j

end Cert.ReferenceIdeal.RefValue

end
-- ==== Proof.Payload.lean ====
/-
  What the kernel body stores, read at one entry.

  The body works on a [1024, 1024] block `x` of examples (one example per row) and on the three weight rows and
  three bias rows, each loaded as a [1, 1024] vector. Per layer it flattens and restores the weight row, spreads it
  over the block's rows, multiplies by the current state and sums each row (a lane sum from zero, which at the
  extended reals is the plain sum over the row), puts the sums back as a column, spreads the column over the
  block's columns, and forms `x * s + bias + state`. Read at `(p, q)` that is entry `q` of Spec.lean's `layer` on row `p`:
  a layer never mixes rows. The stored value is three such layers from the state `x`.
-/
import proofs.«101972_j54657753809485_1_alg».proof.Proof.Gen.KernelIdeal.Skeleton
import proofs.«101972_j54657753809485_1_alg».proof.Proof.Spec
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.ShloMosaic.ValueIdx

namespace Cert.KernelIdeal.Body

open Cert.KernelIdeal Cert.KernelIdeal.Gen Cert.CrossSpec

/-- Row `p` of a block. -/
def brow (v : FVec Ideal S1024x1024 .f32) (p : Fin 1024) : Fin 1024 → EReal := fun d => v (ix2 p d)
/-- A loaded parameter row as a row. -/
def lrow (v : FVec Ideal S1x1024 .f32) : Fin 1024 → EReal := fun d => v (ix2 (0 : Fin 1) d)

/-! ## The layout operations of the body, read at an entry -/

/-- A parameter row flattened to [1024] and restored to [1, 1024] is itself. -/
theorem row_cast_apply (v : FVec Ideal S1x1024 .f32) (u : Fin 1) (d : Fin 1024) :
    shapeCast S1x1024 (shapeCast S1024 v shapeCasts_S1x1024_S1024) shapeCasts_S1024_S1x1024 (ix2 u d) = v (ix2 (0 : Fin 1) d) :=
  (shapeCast_a_1a_apply _ shapeCasts_S1024_S1x1024 u d).trans (shapeCast_1a_a_apply v shapeCasts_S1x1024_S1024 d)

/-- Spread over the block's rows, it is read at the column. -/
theorem row_spread_apply (v : FVec Ideal S1x1024 .f32) (p d : Fin 1024) :
    broadcastTo S1024x1024 (shapeCast S1x1024 (shapeCast S1024 v shapeCasts_S1x1024_S1024) shapeCasts_S1024_S1x1024)
      broadcasts_S1x1024_S1024x1024 (ix2 p d) = v (ix2 (0 : Fin 1) d) :=
  (broadcastTo_1b_ab_apply _ broadcasts_S1x1024_S1024x1024 p d).trans (row_cast_apply v 0 d)

/-- A [1024] vector as a [1024, 1] column. -/
theorem col_cast_apply (v : FVec Ideal S1024 .f32) (p : Fin 1024) (u : Fin 1) :
    shapeCast S1024x1 v shapeCasts_S1024_S1024x1 (ix2 p u) = v (ix1 p) :=
  shapeCast_apply v shapeCasts_S1024_S1024x1 (ix2 p u) (ix1 p) (by
    have hu : u.val = 0 := by omega
    rw [Shape.rowMajor_val_one, Shape.rowMajor_val_two]
    show p.val = p.val * 1 + u.val
    omega)

/-- A column spread over the block's columns is read at the row. -/
theorem col_spread_apply (v : FVec Ideal S1024x1 .f32) (p d : Fin 1024) :
    broadcastTo S1024x1024 v broadcasts_S1024x1_S1024x1024 (ix2 p d) = v (ix2 p (0 : Fin 1)) := by
  refine broadcastTo_apply v broadcasts_S1024x1_S1024x1024 (ix2 p d) (ix2 p (0 : Fin 1)) fun ax => ?_
  match ax with
  | ⟨0, _⟩ => show p.val = if (1024 : ℕ) = 1 then 0 else p.val; rw [if_neg (by decide)]
  | ⟨1, _⟩ => show 0 = if (1 : ℕ) = 1 then 0 else d.val; rw [if_pos rfl]

/-- The lane sum of a block from zero, at row `p`: the sum of the row. -/
theorem rowsum_apply (v : FVec Ideal S1024x1024 .f32) (p : Fin 1024) :
    multiReduction .add [1] S1024 v 0x00000000#32 reduces_S1024x1024_S1024 (.inl rfl) rfl (ix1 p)
      = ∑ k : Fin 1024, v (ix2 p k) := by
  refine (Ideal.multiReduction_add_single v 0x00000000#32 reduces_S1024x1024_S1024 (.inl rfl) rfl (ix1 p)).trans ?_
  refine Finset.sum_congr rfl fun k _ => congrArg v (funext fun a => Fin.ext ?_)
  match a with
  | ⟨0, _⟩ => rfl
  | ⟨1, _⟩ => rfl

/-! ## One layer on a block -/

/-- The body's operations for one layer: the block `x`, the state `c`, the layer's loaded weight and bias rows. -/
def blockLayer (x c : FVec Ideal S1024x1024 .f32) (w b : FVec Ideal S1x1024 .f32) : FVec Ideal S1024x1024 .f32 :=
  addf (addf (mulf x (broadcastTo S1024x1024 (shapeCast S1024x1
      (multiReduction .add [1] S1024
        (mulf c (broadcastTo S1024x1024 (shapeCast S1x1024 (shapeCast S1024 w shapeCasts_S1x1024_S1024) shapeCasts_S1024_S1x1024)
          broadcasts_S1x1024_S1024x1024))
        0x00000000#32 reduces_S1024x1024_S1024 (.inl rfl) rfl)
      shapeCasts_S1024_S1024x1) broadcasts_S1024x1_S1024x1024))
    (broadcastTo S1024x1024 (shapeCast S1x1024 (shapeCast S1024 b shapeCasts_S1x1024_S1024) shapeCasts_S1024_S1x1024)
      broadcasts_S1x1024_S1024x1024)) c

/-- At `(p, q)` it is entry `q` of the layer on row `p`. -/
theorem blockLayer_apply (x c : FVec Ideal S1024x1024 .f32) (w b : FVec Ideal S1x1024 .f32) (p q : Fin 1024) :
    blockLayer x c w b (ix2 p q) = layer (brow x p) (lrow w) (lrow b) (brow c p) q := by
  unfold blockLayer
  rw [addf_apply, addf_apply, mulf_apply, col_spread_apply, col_cast_apply, rowsum_apply, row_spread_apply]
  unfold layer brow lrow
  refine congrArg (fun s => x (ix2 p q) * s + b (ix2 (0 : Fin 1) q) + c (ix2 p q)) (Finset.sum_congr rfl fun k _ => ?_)
  rw [mulf_apply, row_spread_apply]

/-- So row `p` of the new state is the layer on row `p`. -/
theorem brow_blockLayer (x c : FVec Ideal S1024x1024 .f32) (w b : FVec Ideal S1x1024 .f32) (p : Fin 1024) :
    brow (blockLayer x c w b) p = layer (brow x p) (lrow w) (lrow b) (brow c p) :=
  funext fun q => blockLayer_apply x c w b p q

/-! ## The stored value -/

/-- The block as the body holds it is the block as loaded (a cast between equal shapes). -/
theorem pay2_eq (x0 : FVec Ideal S1024x1024 .f32) : k0_pay2 (F := Ideal) x0 = x0 :=
  shapeCast_self x0 _

/-- The stored value is three layers from the block itself. -/
theorem stored_eq (x0 : FVec Ideal S1024x1024 .f32) (w0 b0 w1 b1 w2 b2 : FVec Ideal S1x1024 .f32) :
    k0_pay1 (F := Ideal) (k0_pay2 x0) (k0_pay3 x0 w0 b0 w1 b1) (k0_pay4 b2) (k0_pay5 x0 w0 b0 w1 b1 w2)
      = blockLayer (k0_pay2 x0) (blockLayer (k0_pay2 x0) (blockLayer (k0_pay2 x0) (k0_pay2 x0) w0 b0) w1 b1) w2 b2 := rfl

/-- Read at `(p, q)`: entry `q` of the third state of row `p`. -/
theorem stored_apply (x0 : FVec Ideal S1024x1024 .f32) (w0 b0 w1 b1 w2 b2 : FVec Ideal S1x1024 .f32) (p q : Fin 1024) :
    k0_pay1 (F := Ideal) (k0_pay2 x0) (k0_pay3 x0 w0 b0 w1 b1) (k0_pay4 b2) (k0_pay5 x0 w0 b0 w1 b1 w2) (ix2 p q)
      = layer (brow x0 p) (lrow w2) (lrow b2)
          (layer (brow x0 p) (lrow w1) (lrow b1) (layer (brow x0 p) (lrow w0) (lrow b0) (brow x0 p))) q := by
  rw [stored_eq, pay2_eq, blockLayer_apply, brow_blockLayer, brow_blockLayer]

end Cert.KernelIdeal.Body

end
-- ==== Proof.Blocks.lean ====
/-
  The kernel's result array, as one function of the arguments.

  @main flattens the examples `x` to [16384, 1024] and the weights and biases to [3, 1024] (each a reshape that drops
  the trailing unit axis), runs the kernel over 16 grid points, and restores the trailing axis of the result.
  Grid point `t` is handed rows `1024 t … 1024 t + 1023` of the flattened examples and the whole weight and bias
  arrays, and writes back the same rows of the result. By Payload.lean what it writes at row `p`, column `q` of its
  block is entry `q` of the third state of the example in that row, which is example `1024 t + p`. The 16 blocks
  tile the result, so the flattened result is, at `(n, d)`, entry `d` of example `n`'s third state, and with the
  trailing axis restored it is Spec.lean's `G`.
-/
import proofs.«101972_j54657753809485_1_alg».proof.Proof.Gen.KernelIdeal.Frame
import proofs.«101972_j54657753809485_1_alg».proof.Proof.Payload
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Body Cert.CrossSpec

variable (m : (ℓ : Loc nD τ sig) → Buf (Elt Ideal) ℓ) (ρ : Dev nD → PrngReg)

/-- The examples, the weights and the biases as launched on core `c`. -/
abbrev xs (c : Dev nD) : Batch.Idx → EReal := m ((c : Thread nD τ).loc main_arg0)
abbrev ws (c : Dev nD) : Params.Idx → EReal := m ((c : Thread nD τ).loc main_arg1)
abbrev bs (c : Dev nD) : Params.Idx → EReal := m ((c : Thread nD τ).loc main_arg2)

theorem hz : (![0, 0] : Fin 2 → Nat) = fun _ => 0 := funext fun a => by fin_cases a <;> rfl

/-! ## The arrays the region finds -/

/-- The flattened examples: at `(n, d)` the example array at `(n, d, 0)`. -/
theorem V_x_apply (c : Dev nD) (n : Fin 16384) (d : Fin 1024) :
    (V m c main_v0 : S16384x1024.Idx → EReal) (ix2 n d) = xs m c (ix3 n d (0 : Fin 1)) := by
  have e : (V m c main_v0 : S16384x1024.Idx → EReal)
      = shapeCast S16384x1024 (xs m c) shapeCasts_S16384x1024x1_S16384x1024 := by
    show StableHlo.after hostOps0 (fun b => m (c, b)) (Proc.devRef .tc main_v0) = _
    after_results
    rfl
  rw [e]
  exact shapeCast_apply _ _ _ _ (by
    rw [Shape.rowMajor_val_three, Shape.rowMajor_val_two]
    show (n.val * 1024 + d.val) * 1 + 0 = n.val * 1024 + d.val
    omega)

/-- The flattened weights: at `(l, d)` the weight array at `(l, d, 0)`. -/
theorem V_w_apply (c : Dev nD) (l : Fin 3) (d : Fin 1024) :
    (V m c main_v1 : S3x1024.Idx → EReal) (ix2 l d) = ws m c (ix3 l d (0 : Fin 1)) := by
  have e : (V m c main_v1 : S3x1024.Idx → EReal)
      = shapeCast S3x1024 (ws m c) shapeCasts_S3x1024x1_S3x1024 := by
    show StableHlo.after hostOps0 (fun b => m (c, b)) (Proc.devRef .tc main_v1) = _
    after_results
    rfl
  rw [e]
  exact shapeCast_apply _ _ _ _ (by
    rw [Shape.rowMajor_val_three, Shape.rowMajor_val_two]
    show (l.val * 1024 + d.val) * 1 + 0 = l.val * 1024 + d.val
    omega)

/-- The flattened biases likewise. -/
theorem V_b_apply (c : Dev nD) (l : Fin 3) (d : Fin 1024) :
    (V m c main_v2 : S3x1024.Idx → EReal) (ix2 l d) = bs m c (ix3 l d (0 : Fin 1)) := by
  have e : (V m c main_v2 : S3x1024.Idx → EReal)
      = shapeCast S3x1024 (bs m c) shapeCasts_S3x1024x1_S3x1024 := by
    show StableHlo.after hostOps0 (fun b => m (c, b)) (Proc.devRef .tc main_v2) = _
    after_results
    rfl
  rw [e]
  exact shapeCast_apply _ _ _ _ (by
    rw [Shape.rowMajor_val_three, Shape.rowMajor_val_two]
    show (l.val * 1024 + d.val) * 1 + 0 = l.val * 1024 + d.val
    omega)

/-! ## The blocks -/

/-- The printed index maps over the 16 points: the examples' and the result's block index is `(t, 0)`, the
    parameters' `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block of examples is example `1024 t + p`. -/
theorem xblk_row (c : Dev nD) (t : Fin cfg0.N) (p : Fin 1024) (n : Fin 16384) (hn : n.val = t.val * 1024 + p.val) :
    brow (iblk m c 0 t) p = xrow (xs m c) n := by
  obtain ⟨e0, e1, -⟩ := idx_facts t
  funext d
  unfold brow xrow iblk
  rw [View.read_apply]
  refine Eq.trans ?_ (V_x_apply m c n d)
  show V m c main_v0 _ = V m c main_v0 _
  refine congrArg (V m c main_v0) (funext fun a => Fin.ext ?_)
  match a with
  | ⟨0, _⟩ => show win0_0.index t (0 : Fin 2) * 1024 + 1 * p.val = n.val; rw [e0, hn]; omega
  | ⟨1, _⟩ => show win0_0.index t (1 : Fin 2) * 1024 + 1 * d.val = d.val; rw [e1]; omega

/-- Row `l` of the weights' block, loaded through the one-row rectangle at row `l`, is layer `l`'s weight row. -/
theorem wblk_row (c : Dev nD) (t : Fin cfg0.N) (l : Fin 3) (off : Fin 2 → ℕ)
    (inb : ∀ a, off a + S1x1024.size a ≤ S3x1024.size a) (h0 : off 0 = l.val) (h1 : off 1 = 0) :
    lrow (View.ld (iblk m c 1 t) (Rect.unit (s := S3x1024) off S1x1024.size inb)) = prow (ws m c) l := by
  obtain ⟨-, -, e0, e1, -⟩ := idx_facts t
  funext d
  unfold lrow prow
  show iblk m c 1 t ((Rect.unit (s := S3x1024) off S1x1024.size inb).idx (ix2 (0 : Fin 1) d)) = _
  unfold iblk
  rw [View.read_apply]
  refine Eq.trans ?_ (V_w_apply m c l d)
  show V m c main_v1 _ = V m c main_v1 _
  refine congrArg (V m c main_v1) (funext fun a => Fin.ext ?_)
  match a with
  | ⟨0, _⟩ => show win0_1.index t (0 : Fin 2) * 3 + 1 * (off 0 + 1 * 0) = l.val; rw [e0, h0]; omega
  | ⟨1, _⟩ => show win0_1.index t (1 : Fin 2) * 1024 + 1 * (off 1 + 1 * d.val) = d.val; rw [e1, h1]; omega

/-- The biases' block likewise. -/
theorem bblk_row (c : Dev nD) (t : Fin cfg0.N) (l : Fin 3) (off : Fin 2 → ℕ)
    (inb : ∀ a, off a + S1x1024.size a ≤ S3x1024.size a) (h0 : off 0 = l.val) (h1 : off 1 = 0) :
    lrow (View.ld (iblk m c 2 t) (Rect.unit (s := S3x1024) off S1x1024.size inb)) = prow (bs m c) l := by
  obtain ⟨-, -, -, -, e0, e1, -⟩ := idx_facts t
  funext d
  unfold lrow prow
  show iblk m c 2 t ((Rect.unit (s := S3x1024) off S1x1024.size inb).idx (ix2 (0 : Fin 1) d)) = _
  unfold iblk
  rw [View.read_apply]
  refine Eq.trans ?_ (V_b_apply m c l d)
  show V m c main_v2 _ = V m c main_v2 _
  refine congrArg (V m c main_v2) (funext fun a => Fin.ext ?_)
  match a with
  | ⟨0, _⟩ => show win0_2.index t (0 : Fin 2) * 3 + 1 * (off 0 + 1 * 0) = l.val; rw [e0, h0]; omega
  | ⟨1, _⟩ => show win0_2.index t (1 : Fin 2) * 1024 + 1 * (off 1 + 1 * d.val) = d.val; rw [e1, h1]; omega

/-! ## What a point writes back -/

/-- The flattened result: at `(n, d)`, entry `d` of example `n`'s third state. -/
def flat (c : Dev nD) : S16384x1024.Idx → EReal :=
  fun i => state3 (xs m c) (ws m c) (bs m c) (i 0) (i 1)

/-- The stored value at any index of the block. -/
theorem stored_at (x0 : FVec Ideal S1024x1024 .f32) (w0 b0 w1 b1 w2 b2 : FVec Ideal S1x1024 .f32) (y : S1024x1024.Idx) :
    k0_pay1 (F := Ideal) (k0_pay2 x0) (k0_pay3 x0 w0 b0 w1 b1) (k0_pay4 b2) (k0_pay5 x0 w0 b0 w1 b1 w2) y
      = layer (brow x0 (y 0)) (lrow w2) (lrow b2)
          (layer (brow x0 (y 0)) (lrow w1) (lrow b1) (layer (brow x0 (y 0)) (lrow w0) (lrow b0) (brow x0 (y 0)))) (y 1) :=
  (congrArg _ (eq_ix2 y)).trans (stored_apply x0 w0 b0 w1 b1 w2 b2 (y 0) (y 1))

/-- The flattened result at an index with known coordinates. -/
theorem flat_apply (c : Dev nD) (i : S16384x1024.Idx) (n : Fin 16384) (d : Fin 1024)
    (h0 : (i 0).val = n.val) (h1 : (i 1).val = d.val) :
    flat m c i = state3 (xs m c) (ws m c) (bs m c) n d := by
  have e0 : i 0 = n := Fin.ext h0
  have e1 : i 1 = d := Fin.ext h1
  unfold flat
  rw [e0, e1]

/-- WHAT POINT `t` WRITES BACK is block `t` of the flattened result. -/
theorem flushed_eq (c : Dev nD) (t : Fin cfg0.N) :
    (dats m 0 c).flushed 3 t = ((cfg0.win 3).blk t).view.read (Elt Ideal) (flat m c) := by
  show (cfg0.win 3).cut (grid0.coords t) ((dats m 0 c).after 3 t) = _
  rw [after0_3]
  unfold out0_3
  rw [View.canon_unit_zero hz]
  simp only [View.ld_unit_zero (S := S1024x1024) hz]
  funext y
  rw [View.read_apply]
  refine Eq.trans (stored_at (iblk m c 0 t) (View.ld (iblk m c 1 t) r0_1) (View.ld (iblk m c 2 t) r0_1)
    (View.ld (iblk m c 1 t) r0_2) (View.ld (iblk m c 2 t) r0_2) (View.ld (iblk m c 1 t) r0_3)
    (View.ld (iblk m c 2 t) r0_3) y) ?_
  have hN : cfg0.N = 16 := N_0
  have ht : t.val < 16 := by have := t.isLt; omega
  have hy0 : (y 0).val < 1024 := (y 0).isLt
  have hn : t.val * 1024 + (y 0).val < 16384 := by omega
  obtain ⟨-, -, -, -, -, -, e6, e7⟩ := idx_facts t
  have hx := xblk_row m c t (y 0) ⟨t.val * 1024 + (y 0).val, hn⟩ rfl
  have hw0 : lrow (View.ld (iblk m c 1 t) r0_1) = prow (ws m c) 0 := wblk_row m c t 0 _ _ rfl rfl
  have hw1 : lrow (View.ld (iblk m c 1 t) r0_2) = prow (ws m c) 1 := wblk_row m c t 1 _ _ rfl rfl
  have hw2 : lrow (View.ld (iblk m c 1 t) r0_3) = prow (ws m c) 2 := wblk_row m c t 2 _ _ rfl rfl
  have hb0 : lrow (View.ld (iblk m c 2 t) r0_1) = prow (bs m c) 0 := bblk_row m c t 0 _ _ rfl rfl
  have hb1 : lrow (View.ld (iblk m c 2 t) r0_2) = prow (bs m c) 1 := bblk_row m c t 1 _ _ rfl rfl
  have hb2 : lrow (View.ld (iblk m c 2 t) r0_3) = prow (bs m c) 2 := bblk_row m c t 2 _ _ rfl rfl
  rw [hx, hw0, hw1, hw2, hb0, hb1, hb2]
  refine (flat_apply m c _ ⟨t.val * 1024 + (y 0).val, hn⟩ (y 1) ?_ ?_).symm
  · show win0_3.index t (0 : Fin 2) * 1024 + 1 * (y 0).val = t.val * 1024 + (y 0).val
    rw [e6]; omega
  · show win0_3.index t (1 : Fin 2) * 1024 + 1 * (y 1).val = (y 1).val
    rw [e7]; omega

/-! ## The whole array -/

/-- An index of the result is in point `t`'s block iff each coordinate is in the block's range on its axis. -/
theorem mem_blk (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

/-- Row `n` of the result is in the block of point `n / 1024`: the 16 blocks tile the result. -/
theorem cover (i : S16384x1024.Idx) :
    ∃ t : Fin cfg0.N, (cfg0.win 3).flush t = true ∧ i ∈ ((cfg0.win 3).blk t).view.set := by
  have h0 : (i 0).val < 16384 := (i 0).isLt
  have h1 : (i 1).val < 1024 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 1024 ≤ (i 1).val ∧ (i 1).val < win0_3.index t (1 : Fin 2) * 1024 + 1024
    rw [e7]; omega

/-- So the flattened result array ends holding `flat`. -/
theorem final_flat (c : Dev nD) : (dats m 0 c).arrAt 3 cfg0.N = flat m c :=
  (dats m 0 c).arrAt_eq_of_cover 3 (flat m c) (fun t _ => flushed_eq m c t) cover

/-! ## The trailing axis restored, and the run -/

/-- The one host operation after the region reshapes the flattened result to [16384, 1024, 1]: the result is `G`. -/
theorem tail_eq (c : Dev nD) :
    Pipeline.afterTail₀ cfgs (dats m) 0 (V0 m) [hostOps1] c main_v4 = G (xs m c) (ws m c) (bs m c) := by
  unfold Pipeline.afterTail₀
  show StableHlo.after hostOps1 _ (Proc.devRef .tc main_v4) = _
  after_results
  have hA : Pipeline.withArrays (cfgs 0).spec c (V0 m c) (fun w => (dats m 0 c).arrAt w (cfgs 0).N)
      (Proc.devRef .tc main_v3) = flat m c :=
    (Pipeline.withArrays_arr spec0 launch0.win.arr_inj c _ _ 3).trans (final_flat m c)
  funext i
  show shapeCast S16384x1024x1 (Pipeline.withArrays (cfgs 0).spec c (V0 m c)
    (fun w => (dats m 0 c).arrAt w (cfgs 0).N) (Proc.devRef .tc main_v3)) shapeCasts_S16384x1024_S16384x1024x1 i = _
  rw [hA]
  refine (shapeCast_apply (flat m c) shapeCasts_S16384x1024_S16384x1024x1 i (ix2 (i 0) (i 1)) ?_).trans ?_
  · rw [Shape.rowMajor_val_two, Shape.rowMajor_val_three]
    have h2 : (i 2).val < 1 := (i 2).isLt
    show (i 0).val * 1024 + (i 1).val = ((i 0).val * 1024 + (i 1).val) * 1 + (i 2).val
    omega
  · exact flat_apply m c _ (i 0) (i 1) rfl rfl

/-- The run, read: the result array ends at `G` of the arguments as launched, the arguments unchanged. -/
theorem run : θ_run defs (onTc (τ := τ) (main (F := Ideal))) ⟨m, fun _ => 0, ρ⟩ fun r => ∀ c : Dev nD,
      r.2.mem ((c : Thread nD τ).loc main_v4) = G (xs m c) (ws m c) (bs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.lean ====
/-
  A three-layer cross network: kernel against reference, over the extended reals.

  For every example (a row `x` of 1024 numbers) both programs start from the state `c = x` and apply three layers,
  layer `l` with its weight row `w` and bias row `b`:  `s = ∑ k, c k * w k`,  `c ← (x * s + b) + c`.
  The reference does it on [16384, 1024, 1] arrays with host operations (slices, broadcasts, a sum over axis 1 from
  `0.0`); the kernel on [1024, 1024] blocks of the flattened examples, sixteen of them, with a lane sum per row.
  Both perform the same additions and multiplications in the same order at every entry, and a sum over one row is the
  same finite sum however it is laid out, so the two results are ONE function `G` of the arguments (Spec.lean) with no
  algebraic law beyond `0 + s = s` for the host sum's initial value; in particular nothing needs the inputs finite.
    Spec.lean     the layer, the three states, the result `G`;
    RefRead.lean  the reference's last stage is `G`;
    Payload.lean  what the kernel body stores, at an entry: three layers on that entry's row;
    Blocks.lean   the sixteen blocks tile the result; with the trailing axis restored the kernel's result is `G`.
  The kernel's idealization rewrote nothing, so `preserves` is `True`. The frames are the generated ones; the
  reference's is its generated run with the result dropped.
-/
import proofs.«101972_j54657753809485_1_alg».proof.Defs
import proofs.«101972_j54657753809485_1_alg».proof.Proof.Gen.Kernel
import proofs.«101972_j54657753809485_1_alg».proof.Proof.Gen.Kernel.Skeleton
import proofs.«101972_j54657753809485_1_alg».proof.Proof.Gen.Kernel.Launch
import proofs.«101972_j54657753809485_1_alg».proof.Proof.Gen.Kernel.Points
import proofs.«101972_j54657753809485_1_alg».proof.Proof.Gen.Kernel.Frame
import proofs.«101972_j54657753809485_1_alg».proof.Proof.Gen.KernelIdeal
import proofs.«101972_j54657753809485_1_alg».proof.Proof.Gen.KernelIdeal.Skeleton
import proofs.«101972_j54657753809485_1_alg».proof.Proof.Gen.KernelIdeal.Launch
import proofs.«101972_j54657753809485_1_alg».proof.Proof.Gen.KernelIdeal.Points
import proofs.«101972_j54657753809485_1_alg».proof.Proof.Gen.KernelIdeal.Frame
import proofs.«101972_j54657753809485_1_alg».proof.Proof.Gen.ReferenceIdeal
import proofs.«101972_j54657753809485_1_alg».proof.Proof.Gen.Pre_finite_inputs
import proofs.«101972_j54657753809485_1_alg».proof.Proof.Gen.ReferenceIdeal.Run
import proofs.«101972_j54657753809485_1_alg».proof.Proof.Gen.ReferenceIdeal.Read
import proofs.«101972_j54657753809485_1_alg».proof.Proof.RefRead
import proofs.«101972_j54657753809485_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference's run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten. -/
theorem preserves : Cert.preserves_Kernel_KernelIdeal := trivial

/-- From arguments that agree both programs end with the result array at `G` of the arguments. -/
theorem algebraic : Cert.algebraic_KernelIdeal_ReferenceIdeal := by
  intro m ρ m' ρ' _ hagree
  refine ⟨fun c => Cert.CrossSpec.G (Cert.KernelIdeal.Hand.xs m c) (Cert.KernelIdeal.Hand.ws m c) (Cert.KernelIdeal.Hand.bs m c),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
